-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x128 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16x8192 .f32) (main_arg1 : FVec F S8192x128 .f32) (main_arg2 : FVec F S64x128 .f32) (main_arg3 : FVec F S64 .f32) (main_arg4 : FVec F S64x128 .f32) (main_arg5 : FVec F S64 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S1x64 : Shape := ⟨2, ![1, 64]⟩
abbrev S64x1 : Shape := ⟨2, ![64, 1]⟩
abbrev S64x8192 : Shape := ⟨2, ![64, 8192]⟩
abbrev S512x128 : Shape := ⟨2, ![512, 128]⟩
abbrev S512x64 : Shape := ⟨2, ![512, 64]⟩
abbrev S512x8192 : Shape := ⟨2, ![512, 8192]⟩
abbrev S1x8192 : Shape := ⟨2, ![1, 8192]⟩
abbrev S1x512 : Shape := ⟨2, ![1, 512]⟩
abbrev S16x512 : Shape := ⟨2, ![16, 512]⟩

abbrev nBuf : Space → Nat
  | .hbm => 9
  | .vmem => 8
  | .smem => 0
  | _ => 0

abbrev bufTy : (tb : Table) → Fin (tcTables nBuf tb) → BufTy
  | .hbm, ⟨0, _⟩ => ⟨S16x8192, .f32⟩
  | .hbm, ⟨1, _⟩ => ⟨S8192x128, .f32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S1x64, .f32⟩
  | .hbm, ⟨7, _⟩ => ⟨S64x1, .f32⟩
  | .hbm, ⟨8, _⟩ => ⟨S16x8192, .f32⟩
  | .local _ .vmem, ⟨0, _⟩ => ⟨S16x8192, .f32⟩
  | .local _ .vmem, ⟨1, _⟩ => ⟨S8192x128, .f32⟩
  | .local _ .vmem, ⟨2, _⟩ => ⟨S64x128, .f32⟩
  | .local _ .vmem, ⟨3, _⟩ => ⟨S1x64, .f32⟩
  | .local _ .vmem, ⟨4, _⟩ => ⟨S64x128, .f32⟩
  | .local _ .vmem, ⟨5, _⟩ => ⟨S64x1, .f32⟩
  | .local _ .vmem, ⟨6, _⟩ => ⟨S16x8192, .f32⟩
  | .local _ .vmem, ⟨7, _⟩ => ⟨S64x8192, .bf16⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c512_i32 : BitVec 32 := 512#32
  let v3 : BitVec 32 := Scalar.muli arg0 c512_i32
  let v4 : Index := Scalar.indexCast v3
  let c0 : Index := 0#32
  ![v4.toNat, 0]
def k0_off2 (i : grid0.Coords) : Fin 2 → Nat :=
  let c0_11 : Index := 0#32
  let arg0 : BitVec 32 := BitVec.ofNat 32 (i 0).val
  let c512_i32_10 : BitVec 32 := 512#32
  let v19 : BitVec 32 := Scalar.muli arg0 c512_i32_10
  let v20 : Index := Scalar.indexCast v19
  ![0, v20.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S64_S1x64 : S64.ShapeCasts S1x64
  shapeCasts_S64_S64x1 : S64.ShapeCasts S64x1
  inb_S64x128_S64x128_0_0 : ∀ a, (![0, 0] : Fin 2 → Nat) a + S64x128.size a ≤ S64x128.size a
  h_S64x128 : 0 < S64x128.numel
  inb_S8192x128_S8192x128_0_0 : ∀ a, (![0, 0] : Fin 2 → Nat) a + S8192x128.size a ≤ S8192x128.size a
  h_S8192x128 : 0 < S8192x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x8192 : S64x1.Broadcasts S64x8192
  bitsLt_bf16_f32 : FTy.bits .bf16 < FTy.bits .f32
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  packedbf16_S64x8192_S64x8192_0_0 : (Rect.unit (s := S64x8192) ![0, 0] S64x8192.size inb_S64x8192_S64x8192_0_0).PackedRows (EltTy.packing .bf16)
  inb_S16x8192_S16x8192_0_0 : ∀ a, (![0, 0] : Fin 2 → Nat) a + S16x8192.size a ≤ S16x8192.size a
  h_S16x8192 : 0 < S16x8192.numel
  h_S512x128 : 0 < S512x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  h_S16x512 : 0 < S16x512.numel
  broadcasts_S1x512_S16x512 : S1x512.Broadcasts S16x512
  shapeCasts_S16x8192_S16x8192 : S16x8192.ShapeCasts S16x8192
  dot_S64x128_S8192x128_S64x8192_1_1_0_0_n_n_wf : DotDims.WF S64x128 S8192x128 S64x8192 [1] [1] [0] [0] [] []
  dot_S512x128_S64x128_S512x64_1_1_0_0_n_n_wf : DotDims.WF S512x128 S64x128 S512x64 [1] [1] [0] [0] [] []
  dot_S512x64_S64x8192_S512x8192_1_0_0_1_n_n_wf : DotDims.WF S512x64 S64x8192 S512x8192 [1] [0] [0] [1] [] []
  dot_S1x8192_S512x8192_S1x512_1_1_0_0_n_n_wf : DotDims.WF S1x8192 S512x8192 S1x512 [1] [1] [0] [0] [] []
  dot_S16x512_S512x8192_S16x8192_1_0_0_1_n_n_wf : DotDims.WF S16x512 S512x8192 S16x8192 [1] [0] [0] [1] [] []
  hrank0 : 0 < grid0.rank
  k0_off1_inb : ∀ i : grid0.Coords, ∀ a, (k0_off1 i) a + S512x128.size a ≤ S8192x128.size a
  k0_off2_inb : ∀ i : grid0.Coords, ∀ a, (k0_off2 i) a + S16x512.size a ≤ S16x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x8192.size a
  hwx0_0 : ∀ i : grid0.Coords, EltTy.bits .f32 = 32 ∨ (Rect.block (s := S16x8192) S16x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x8192.size a ≤ S16x8192.size a
  hwx0_6 : ∀ i : grid0.Coords, EltTy.bits .f32 = 32 ∨ (Rect.block (s := S16x8192) S16x8192.size (cc0_transform_6 i) (hinb0_6 i)).WholeWords (EltTy.packing .f32)

variable [Facts₀]

def dot_S64x128_S8192x128_S64x8192_1_1_0_0_n_n : DotDims S64x128 S8192x128 S64x8192 where
  lhsContracting := [1]
  rhsContracting := [1]
  lhsNonContracting := [0]
  rhsNonContracting := [0]
  lhsBatch := []
  rhsBatch := []
  wf := dot_S64x128_S8192x128_S64x8192_1_1_0_0_n_n_wf
def dot_S512x128_S64x128_S512x64_1_1_0_0_n_n : DotDims S512x128 S64x128 S512x64 where
  lhsContracting := [1]
  rhsContracting := [1]
  lhsNonContracting := [0]
  rhsNonContracting := [0]
  lhsBatch := []
  rhsBatch := []
  wf := dot_S512x128_S64x128_S512x64_1_1_0_0_n_n_wf
def dot_S512x64_S64x8192_S512x8192_1_0_0_1_n_n : DotDims S512x64 S64x8192 S512x8192 where
  lhsContracting := [1]
  rhsContracting := [0]
  lhsNonContracting := [0]
  rhsNonContracting := [1]
  lhsBatch := []
  rhsBatch := []
  wf := dot_S512x64_S64x8192_S512x8192_1_0_0_1_n_n_wf
def dot_S1x8192_S512x8192_S1x512_1_1_0_0_n_n : DotDims S1x8192 S512x8192 S1x512 where
  lhsContracting := [1]
  rhsContracting := [1]
  lhsNonContracting := [0]
  rhsNonContracting := [0]
  lhsBatch := []
  rhsBatch := []
  wf := dot_S1x8192_S512x8192_S1x512_1_1_0_0_n_n_wf
def dot_S16x512_S512x8192_S16x8192_1_0_0_1_n_n : DotDims S16x512 S512x8192 S16x8192 where
  lhsContracting := [1]
  rhsContracting := [0]
  lhsNonContracting := [0]
  rhsNonContracting := [1]
  lhsBatch := []
  rhsBatch := []
  wf := dot_S16x512_S512x8192_S16x8192_1_0_0_1_n_n_wf

abbrev win0_0 : Pipeline.Window sig grid0 :=
  Pipeline.Window.ofSpec (Memref.whole main_arg0) S16x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S16x8192.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S128x64 : Shape := ⟨2, ![128, 64]⟩
abbrev S8192x64 : Shape := ⟨2, ![8192, 64]⟩
abbrev S1x64 : Shape := ⟨2, ![1, 64]⟩
abbrev S64x8192 : Shape := ⟨2, ![64, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S8192x128, .f32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S128x64, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S128x64, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S64x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x128_S128x64_S8192x64_1_0_0_1_n_n_wf : DotDims.WF S8192x128 S128x64 S8192x64 [1] [0] [0] [1] [] []
  dot_S8192x64_S64x8192_S8192x8192_1_0_0_1_n_n_wf : DotDims.WF S8192x64 S64x8192 S8192x8192 [1] [0] [0] [1] [] []
  dot_S16x8192_S8192x8192_S16x8192_1_0_0_1_n_n_wf : DotDims.WF S16x8192 S8192x8192 S16x8192 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S16x8192_S8192x8192_S16x8192_1_0_0_1_n_n : DotDims S16x8192 S8192x8192 S16x8192 where
  lhsContracting := [1]
  rhsContracting := [0]
  lhsNonContracting := [0]
  rhsNonContracting := [1]
  lhsBatch := []
  rhsBatch := []
  wf := dot_S16x8192_S8192x8192_S16x8192_1_0_0_1_n_n_wf

class Facts : Prop extends Facts₀ where

variable [Facts]
-- ==== Proof.Spec.lean ====
/-
  The mathematics of the factorized transition, stated once over the extended reals.

  Given a belief `bel : 16 × 8192`, an embedding table `emb : 8192 × 128` and two affine maps
  (`wk, bk` for keys, `wq, bq` for queries, each 128 → 64), put
    qry i h   = (∑ d, emb i d · wq h d) + bq h
    key s h   = (∑ d, wk h d · emb s d) + bk h
    logit i s = ∑ h, qry i h · key s h.
  The transition matrix is the row-wise softmax of `logit`, and the result is `bel` times it.

  Two spellings of that result live here.
  * `prior`: the softmax written WITHOUT subtracting a row maximum and with the normalisation moved
    onto the belief:  prior b j = ∑ i, (bel b i / mass i) · wgt i j,  wgt i s = exp (logit i s),
    mass i = ∑ s, wgt i s.
  * `refPrior`: the softmax written WITH the row maximum `rowMax i` subtracted inside the exponential,
    the normalising sum started from a zero word:
      refPrior b j = ∑ i, bel b i · (exp (logit i j − rowMax i) / (0 + ∑ s, exp (logit i s − rowMax i))).
  Over the reals the two agree because exp (l − M) = exp l · exp (−M) with exp (−M) a positive real that
  cancels; on the extended reals that cancellation needs every quantity to be a real, which is what
  `AllReal` records for an array.
-/
import Idealize.ShloMosaic.PureOps.Ideal
import Idealize.ShloMosaic.Lib.ValueIdx

noncomputable section

open scoped BigOperators

namespace Cert.Transition

open Idealize.ShloMosaic Idealize.ShloMosaic.ValueIdx

/-- The four kinds of argument array, as functions on their literal index sets. -/
abbrev Bel := (⟨2, ![16, 8192]⟩ : Shape).Idx → EReal
abbrev Emb := (⟨2, ![8192, 128]⟩ : Shape).Idx → EReal
abbrev Wt := (⟨2, ![64, 128]⟩ : Shape).Idx → EReal
abbrev Bias := (⟨1, ![64]⟩ : Shape).Idx → EReal

/-- An extended real that is a real. -/
def IsReal (x : EReal) : Prop := ∃ r : ℝ, x = (r : EReal)

/-- An array all of whose entries are reals. -/
def AllReal {ι : Type} (f : ι → EReal) : Prop := ∀ i, IsReal (f i)

section
variable (bel : Bel) (emb : Emb) (wk : Wt) (bk : Bias) (wq : Wt) (bq : Bias)

/-- Query feature `h` of state `i`. -/
def qry (i : Fin 8192) (h : Fin 64) : EReal := (∑ d : Fin 128, emb (ix2 i d) * wq (ix2 h d)) + bq (ix1 h)

/-- Key feature `h` of state `s`. -/
def key (s : Fin 8192) (h : Fin 64) : EReal := (∑ d : Fin 128, wk (ix2 h d) * emb (ix2 s d)) + bk (ix1 h)

/-- The logit of the transition from state `i` to state `s`. -/
def logit (i s : Fin 8192) : EReal := ∑ h : Fin 64, qry emb wq bq i h * key emb wk bk s h

/-- The unnormalised transition weight. -/
def wgt (i s : Fin 8192) : EReal := Ideal.exp (logit emb wk bk wq bq i s)

/-- The total weight leaving state `i`. -/
def mass (i : Fin 8192) : EReal := ∑ s : Fin 8192, wgt emb wk bk wq bq i s

/-- What state `i` contributes to the new belief of batch row `b` at state `j`. -/
def term (b : Fin 16) (j i : Fin 8192) : EReal :=
  Ideal.div (bel (ix2 b i)) (mass emb wk bk wq bq i) * wgt emb wk bk wq bq i j

/-- The new belief, the normalisation carried by the old belief. -/
def prior : Bel := fun y => ∑ i : Fin 8192, term bel emb wk bk wq bq (y 0) (y 1) i

/-- The row maximum as a max-reduction from `-∞` computes it, joined once more with `-∞`. -/
def rowMax (i : Fin 8192) : EReal :=
  max (Ideal.ofBits .f32 0xFF800000#32)
    ((Finset.univ : Finset (Fin 8192)).fold max (Ideal.ofBits .f32 0xFF800000#32) (fun s => logit emb wk bk wq bq i s))

/-- The shifted weight `exp (logit − rowMax)`. -/
def swgt (i s : Fin 8192) : EReal := Ideal.exp (logit emb wk bk wq bq i s - rowMax emb wk bk wq bq i)

/-- The new belief, the softmax with its row maximum subtracted. -/
def refPrior : Bel := fun y => ∑ i : Fin 8192,
  bel (ix2 (y 0) i) * Ideal.div (swgt emb wk bk wq bq i (y 1))
    (Ideal.ofBits .f32 0x00000000#32 + ∑ s : Fin 8192, swgt emb wk bk wq bq i s)

end

end Cert.Transition

end
-- ==== Proof.Softmax.lean ====
/-
  The two spellings of the new belief agree when every argument entry is a real.

  Three steps.
  1. Inside the extended reals the reals are closed under sums and products, so with real arguments
     every query, key and logit is a real.
  2. A fold of max from -∞ over a nonempty finite family of reals is one of them, hence a real: the
     row maximum is a real.
  3. For reals l s, M and b:  exp (l j − M) = exp (l j) / exp M  and
     ∑ s, exp (l s − M) = (∑ s, exp (l s)) / exp M,  with exp M and both sums positive, so
       b · (exp (l j − M) / ∑ s, exp (l s − M)) = (b / ∑ s, exp (l s)) · exp (l j).
     This is field arithmetic in ℝ; the coercion ℝ → EReal carries it to the statement.
-/
import proofs.«127423_g5935644803188_cont_9to1c4b_610_4_alg».proof.Proof.Spec
import Idealize.ShloMosaic.PureOps.Ideal.Laws
import Mathlib.Data.EReal.Basic
import Mathlib.Data.EReal.Operations
import Mathlib.Data.Finset.Fold
import Mathlib.Analysis.Complex.Exponential
import Mathlib.Algebra.BigOperators.Field
import Mathlib.Algebra.Order.BigOperators.Group.Finset

noncomputable section

open scoped BigOperators

namespace Cert.Transition

open Idealize.ShloMosaic Idealize.ShloMosaic.ValueIdx

/-! ### Reals inside the extended reals -/

/-- The sum of two reals is a real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two reals is a real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is a real. -/
theorem IsReal.sum {ι : Type} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The coercion ℝ → EReal commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The logits are reals -/

section
variable (emb : Emb) (wk : Wt) (bk : Bias) (wq : Wt) (bq : Bias)

/-- With real arguments every query feature is a real. -/
theorem qry_real (hemb : AllReal emb) (hwq : AllReal wq) (hbq : AllReal bq) (i : Fin 8192) (h : Fin 64) :
    IsReal (qry emb wq bq i h) :=
  (IsReal.sum _ _ fun d _ => (hemb (ix2 i d)).mul (hwq (ix2 h d))).add (hbq (ix1 h))

/-- With real arguments every key feature is a real. -/
theorem key_real (hemb : AllReal emb) (hwk : AllReal wk) (hbk : AllReal bk) (s : Fin 8192) (h : Fin 64) :
    IsReal (key emb wk bk s h) :=
  (IsReal.sum _ _ fun d _ => (hwk (ix2 h d)).mul (hemb (ix2 s d))).add (hbk (ix1 h))

/-- With real arguments every logit is a real. -/
theorem logit_real (hemb : AllReal emb) (hwk : AllReal wk) (hbk : AllReal bk) (hwq : AllReal wq)
    (hbq : AllReal bq) (i s : Fin 8192) : IsReal (logit emb wk bk wq bq i s) :=
  IsReal.sum _ _ fun h _ => (qry_real emb wq bq hemb hwq hbq i h).mul (key_real emb wk bk hemb hwk hbk s h)

end

/-! ### The row maximum is a real -/

/-- The f32 word of -∞ is the bottom extended real. -/
theorem ofBits_negInf_f32 : Ideal.ofBits .f32 0xFF800000#32 = ⊥ := by simp [Ideal.ofBits, Ideal.ieee]

/-- A fold of max from -∞ over a finite family of reals is -∞ or a real. -/
theorem fold_max_bot_or_real {ι : Type} (s : Finset ι) (f : ι → EReal) (h : ∀ i ∈ s, IsReal (f i)) :
    s.fold max ⊥ f = ⊥ ∨ IsReal (s.fold max ⊥ f) := by
  classical
  induction s using Finset.induction_on with
  | empty => exact Or.inl Finset.fold_empty
  | insert a s ha ih =>
    right
    rw [Finset.fold_insert ha]
    obtain ⟨r, hr⟩ := h a (Finset.mem_insert_self a s)
    rcases ih (fun i hi => h i (Finset.mem_insert_of_mem hi)) with h0 | ⟨t, ht⟩
    · rw [h0, hr]
      exact ⟨r, max_eq_left bot_le⟩
    · rw [ht, hr]
      exact ⟨max r t, (EReal.coe_strictMono.monotone.map_max).symm⟩

/-- Over a nonempty family it is a real, and stays one when joined once more with -∞. -/
theorem fold_max_real {ι : Type} (s : Finset ι) (hs : s.Nonempty) (f : ι → EReal)
    (h : ∀ i ∈ s, IsReal (f i)) : IsReal (max ⊥ (s.fold max ⊥ f)) := by
  rw [max_eq_right bot_le]
  rcases fold_max_bot_or_real s f h with h0 | hr
  · exfalso
    obtain ⟨i, hi⟩ := hs
    obtain ⟨r, hr⟩ := h i hi
    have hle : f i ≤ s.fold max ⊥ f := (Finset.le_fold_max (f i)).2 (Or.inr ⟨i, hi, le_rfl⟩)
    rw [h0, hr] at hle
    exact EReal.coe_ne_bot r (le_bot_iff.1 hle)
  · exact hr

/-- With real arguments every row maximum is a real. -/
theorem rowMax_real (emb : Emb) (wk : Wt) (bk : Bias) (wq : Wt) (bq : Bias)
    (hemb : AllReal emb) (hwk : AllReal wk) (hbk : AllReal bk) (hwq : AllReal wq) (hbq : AllReal bq)
    (i : Fin 8192) : IsReal (rowMax emb wk bk wq bq i) := by
  unfold rowMax
  rw [ofBits_negInf_f32]
  exact fold_max_real _ ⟨0, Finset.mem_univ _⟩ _ fun s _ => logit_real emb wk bk wq bq hemb hwk hbk hwq hbq i s

/-! ### The cancellation, over ℝ and then over the extended reals -/

/-- Over ℝ: subtracting a constant inside the exponentials leaves the normalised weight unchanged, and the
    normalisation may sit on either factor. -/
theorem shift_cancel {ι : Type} [Fintype ι] [Nonempty ι] (l : ι → ℝ) (M b : ℝ) (j : ι) :
    b * (Real.exp (l j - M) * (1 / ∑ s, Real.exp (l s - M))) =
      b * (1 / ∑ s, Real.exp (l s)) * Real.exp (l j) := by
  have hM : Real.exp M ≠ 0 := (Real.exp_pos M).ne'
  have hS : (∑ s, Real.exp (l s)) ≠ 0 :=
    (Finset.sum_pos (fun s _ => Real.exp_pos (l s)) Finset.univ_nonempty).ne'
  have hsum : ∑ s, Real.exp (l s - M) = (∑ s, Real.exp (l s)) / Real.exp M := by
    rw [Finset.sum_div]
    exact Finset.sum_congr rfl fun s _ => Real.exp_sub _ _
  rw [hsum, Real.exp_sub]
  field_simp

/-- The same with every quantity read in the extended reals through the operations of the ideal instance. -/
theorem term_shift {ι : Type} [Fintype ι] [Nonempty ι] (l : ι → ℝ) (M b : ℝ) (j : ι) :
    (b : EReal) * Ideal.div (Ideal.exp ((l j : EReal) - (M : EReal)))
        (Ideal.ofBits .f32 0x00000000#32 + ∑ s, Ideal.exp ((l s : EReal) - (M : EReal))) =
      Ideal.div (b : EReal) (∑ s, Ideal.exp (l s : EReal)) * Ideal.exp (l j : EReal) := by
  have hS : (∑ s, Real.exp (l s)) ≠ 0 :=
    (Finset.sum_pos (fun s _ => Real.exp_pos (l s)) Finset.univ_nonempty).ne'
  have hS' : (∑ s, Real.exp (l s - M)) ≠ 0 :=
    (Finset.sum_pos (fun s _ => Real.exp_pos (l s - M)) Finset.univ_nonempty).ne'
  rw [Ideal.ofBits_zero_f32, zero_add]
  simp only [← EReal.coe_sub, Ideal.exp_coe]
  rw [← coe_sum, ← coe_sum, Ideal.div_coe hS', Ideal.div_coe hS, ← EReal.coe_mul, ← EReal.coe_mul,
    ← EReal.coe_mul, ← EReal.coe_mul, shift_cancel]

/-! ### The two spellings agree -/

/-- With every entry of every argument a real, the softmax with the row maximum subtracted and the
    normalisation on the weight is the softmax without it and the normalisation on the belief. -/
theorem refPrior_eq_prior (bel : Bel) (emb : Emb) (wk : Wt) (bk : Bias) (wq : Wt) (bq : Bias)
    (hbel : AllReal bel) (hemb : AllReal emb) (hwk : AllReal wk) (hbk : AllReal bk) (hwq : AllReal wq) (hbq : AllReal bq) :
    refPrior bel emb wk bk wq bq = prior bel emb wk bk wq bq := by
  funext y
  unfold refPrior prior term
  refine Finset.sum_congr rfl fun i _ => ?_
  obtain ⟨b, hb⟩ := hbel (ix2 (y 0) i)
  choose l hl using fun s => logit_real emb wk bk wq bq hemb hwk hbk hwq hbq i s
  obtain ⟨M, hM⟩ := rowMax_real emb wk bk wq bq hemb hwk hbk hwq hbq i
  simp only [mass, wgt, swgt, hl, hM, hb]
  rw [hl (y 1)]
  exact term_shift l M b (y 1)

end Cert.Transition

end
-- ==== Proof.RefRead.lean ====
/-
  The reference's result, read one operation at a time, is the softmax with its row maximum subtracted.

  The reference computes, in order: the query features (embedding times the transposed query weight, plus the
  broadcast query bias), the key features likewise, the logits (query features times the transposed key features),
  the row maximum (a max-reduction over the second axis started from -∞, joined once more with a broadcast -∞),
  the shifted weights exp (logit − row maximum), their row sums started from the zero word, the quotient, and the
  belief times that quotient. Each lemma below reads one of these stages at explicit coordinates and identifies it
  with the corresponding definition of the specification; the last assembles them.
-/
import proofs.«127423_g5935644803188_cont_9to1c4b_610_4_alg».proof.Proof.Spec
import proofs.«127423_g5935644803188_cont_9to1c4b_610_4_alg».proof.Proof.Gen.ReferenceIdeal.Read

noncomputable section

open scoped BigOperators

namespace Cert.Transition.RefRead

open Idealize.ShloMosaic Idealize.ShloMosaic.ValueIdx Cert.ReferenceIdeal Cert.ReferenceIdeal.Read Cert.Transition

section
variable (x0 : (⟨S16x8192, .f32⟩ : BufTy).Contents (Elt Ideal)) (x1 : (⟨S8192x128, .f32⟩ : BufTy).Contents (Elt Ideal))
  (x2 : (⟨S64x128, .f32⟩ : BufTy).Contents (Elt Ideal)) (x3 : (⟨S64, .f32⟩ : BufTy).Contents (Elt Ideal))
  (x4 : (⟨S64x128, .f32⟩ : BufTy).Contents (Elt Ideal)) (x5 : (⟨S64, .f32⟩ : BufTy).Contents (Elt Ideal))

/-- The query stage at (i, h): the embedding row i against the query weight row h (the transposed weight read
    at (d, h) is the weight at (h, d)), plus the query bias at h (broadcast along the rows). -/
theorem qry_read (i : Fin 8192) (h : Fin 64) :
    val_main_v4 (F := Ideal) x1 x4 x5 (ix2 i h) = qry x1 x4 x5 i h := by
  rw [val_main_v4_apply, val_main_v1_apply, val_main_v3_apply, val_main_v2_apply, Ideal.addf_def]
  unfold qry
  refine congrArg₂ (· + ·) (Finset.sum_congr rfl fun d _ => ?_) ?_
  · rw [val_main_v0_apply]
    have e1 : lidx_main_v1 (ix2 i h) d = ix2 i d :=
      funext fun a => Fin.ext (by match a with | ⟨0, _⟩ => rfl | ⟨1, _⟩ => rfl)
    have e2 : idx_main_v0 (ridx_main_v1 (ix2 i h) d) = ix2 h d :=
      funext fun a => Fin.ext (by match a with | ⟨0, _⟩ => rfl | ⟨1, _⟩ => rfl)
    rw [e1, e2]
  · exact congrArg x5 (funext fun a => Fin.ext (by match a with | ⟨0, _⟩ => rfl))

/-- The key stage at (s, h): the embedding row s against the key weight row h, plus the key bias at h; the
    reference multiplies embedding by weight, the specification weight by embedding. -/
theorem key_read (s : Fin 8192) (h : Fin 64) :
    val_main_v9 (F := Ideal) x1 x2 x3 (ix2 s h) = key x1 x2 x3 s h := by
  rw [val_main_v9_apply, val_main_v6_apply, val_main_v8_apply, val_main_v7_apply, Ideal.addf_def]
  unfold key
  refine congrArg₂ (· + ·) (Finset.sum_congr rfl fun d _ => ?_) ?_
  · rw [val_main_v5_apply]
    have e1 : lidx_main_v6 (ix2 s h) d = ix2 s d :=
      funext fun a => Fin.ext (by match a with | ⟨0, _⟩ => rfl | ⟨1, _⟩ => rfl)
    have e2 : idx_main_v5 (ridx_main_v6 (ix2 s h) d) = ix2 h d :=
      funext fun a => Fin.ext (by match a with | ⟨0, _⟩ => rfl | ⟨1, _⟩ => rfl)
    rw [e1, e2]
    exact mul_comm _ _
  · exact congrArg x3 (funext fun a => Fin.ext (by match a with | ⟨0, _⟩ => rfl))

/-- The logit stage at (i, s): the query features of i against the key features of s (the transposed key stage
    read at (h, s) is the key stage at (s, h)). -/
theorem logit_read (i s : Fin 8192) :
    val_main_v11 (F := Ideal) x1 x2 x3 x4 x5 (ix2 i s) = logit x1 x2 x3 x4 x5 i s := by
  rw [val_main_v11_apply]
  unfold logit
  refine Finset.sum_congr rfl fun h _ => ?_
  rw [val_main_v10_apply]
  have e1 : lidx_main_v11 (ix2 i s) h = ix2 i h :=
    funext fun a => Fin.ext (by match a with | ⟨0, _⟩ => rfl | ⟨1, _⟩ => rfl)
  have e2 : idx_main_v10 (ridx_main_v11 (ix2 i s) h) = ix2 s h :=
    funext fun a => Fin.ext (by match a with | ⟨0, _⟩ => rfl | ⟨1, _⟩ => rfl)
  rw [e1, e2, qry_read, key_read]

/-- The source index over the row index i with coordinate k on the reduced (second) axis is (i, k). -/
theorem lift_row (hr : S8192x8192.Reduces [1] S8192) (i : Fin 8192) (k : Fin (S8192x8192.size 1)) :
    hr.lift (ix1 i) k = ix2 i (⟨k.val, k.isLt⟩ : Fin 8192) := by
  funext c
  apply Fin.ext
  match c with
  | ⟨0, _⟩ => rfl
  | ⟨1, _⟩ => rfl

/-- The max-reduction stage at i is the fold of max over the logits of row i, started from the -∞ word. -/
theorem fold_read (i : Fin 8192) :
    val_main_v12 (F := Ideal) x1 x2 x3 x4 x5 (ix1 i)
      = (Finset.univ : Finset (Fin 8192)).fold max (Ideal.ofBits .f32 0xFF800000#32)
          (fun s => logit x1 x2 x3 x4 x5 i s) := by
  have hr : S8192x8192.Reduces [1] S8192 := by decide
  unfold val_main_v12
  rw [Host.reduce_eq_fold_single FloatOps.maximumf _ _ _ hr]
  have hf : (val_main_v11 (F := Ideal) x1 x2 x3 x4 x5 ∘ hr.lift (ix1 i))
      = fun s : Fin 8192 => logit x1 x2 x3 x4 x5 i s :=
    funext fun k => (congrArg (val_main_v11 (F := Ideal) x1 x2 x3 x4 x5) (lift_row hr i k)).trans
      (logit_read x1 x2 x3 x4 x5 i _)
  exact congrArg (fun f => Finset.fold max (Ideal.ofBits .f32 0xFF800000#32) f (Finset.univ : Finset (Fin 8192))) hf

/-- The row-maximum stage at i: the broadcast -∞ word joined with the max-reduction. -/
theorem rowMax_read (i : Fin 8192) :
    val_main_v14 (F := Ideal) x1 x2 x3 x4 x5 (ix1 i) = rowMax x1 x2 x3 x4 x5 i := by
  rw [val_main_v14_apply, val_main_v13_apply, val_main_cst_0_apply, fold_read, Ideal.maximumf_def, Ideal.ofBits_def]
  rfl

/-- The exponential stage at (i, s): exp of the logit less the row maximum of row i (broadcast along the row). -/
theorem swgt_read (i s : Fin 8192) :
    val_main_v18 (F := Ideal) x1 x2 x3 x4 x5 (ix2 i s) = swgt x1 x2 x3 x4 x5 i s := by
  rw [val_main_v18_apply, val_main_v17_apply, val_main_v16_apply, val_main_v15_apply]
  have e : idx_main_v15 (idx_main_v16 (ix2 i s)) = ix1 i :=
    funext fun a => Fin.ext (by match a with | ⟨0, _⟩ => rfl)
  rw [e, logit_read, rowMax_read, Ideal.hostUnary_exp_def, Ideal.subf_def]
  rfl

/-- The row-sum stage at i: the zero word plus the sum of the shifted weights of row i. -/
theorem norm_read (i : Fin 8192) :
    val_main_v19 (F := Ideal) x1 x2 x3 x4 x5 (ix1 i)
      = Ideal.ofBits .f32 0x00000000#32 + ∑ s : Fin 8192, swgt x1 x2 x3 x4 x5 i s := by
  rw [val_main_v19_apply, val_main_cst_1_apply, Ideal.ofBits_def]
  refine congrArg (_ + ·) (Finset.sum_congr rfl fun s _ => ?_)
  have e : idx_main_v19 (ix1 i) s = ix2 i s :=
    funext fun a => Fin.ext (by match a with | ⟨0, _⟩ => rfl | ⟨1, _⟩ => rfl)
  rw [e, swgt_read]

/-- The quotient stage at (i, j): the shifted weight over the row sum of row i (broadcast along the row). -/
theorem quot_read (i j : Fin 8192) :
    val_main_v22 (F := Ideal) x1 x2 x3 x4 x5 (ix2 i j)
      = Ideal.div (swgt x1 x2 x3 x4 x5 i j)
          (Ideal.ofBits .f32 0x00000000#32 + ∑ s : Fin 8192, swgt x1 x2 x3 x4 x5 i s) := by
  rw [val_main_v22_apply, val_main_v21_apply, val_main_v20_apply]
  have e : idx_main_v20 (idx_main_v21 (ix2 i j)) = ix1 i :=
    funext fun a => Fin.ext (by match a with | ⟨0, _⟩ => rfl)
  rw [e, swgt_read, norm_read, Ideal.hostDivf_def]

end

/-- The reference's last stage, as a function of the six argument arrays (belief, embedding, key weight, key bias,
    query weight, query bias), is `refPrior` of them. -/
theorem ref_value (x0 : (⟨S16x8192, .f32⟩ : BufTy).Contents (Elt Ideal)) (x1 : (⟨S8192x128, .f32⟩ : BufTy).Contents (Elt Ideal))
    (x2 : (⟨S64x128, .f32⟩ : BufTy).Contents (Elt Ideal)) (x3 : (⟨S64, .f32⟩ : BufTy).Contents (Elt Ideal))
    (x4 : (⟨S64x128, .f32⟩ : BufTy).Contents (Elt Ideal)) (x5 : (⟨S64, .f32⟩ : BufTy).Contents (Elt Ideal)) :
    val_main_v23 (F := Ideal) x0 x1 x2 x3 x4 x5 = refPrior x0 x1 x2 x3 x4 x5 := by
  funext y
  obtain ⟨b, j, rfl⟩ : ∃ (b : Fin 16) (j : Fin 8192), y = ix2 b j := ⟨y 0, y 1, eq_ix2 y⟩
  rw [val_main_v23_apply]
  unfold refPrior
  refine Finset.sum_congr rfl fun i _ => ?_
  have e1 : lidx_main_v23 (ix2 b j) i = ix2 b i :=
    funext fun a => Fin.ext (by match a with | ⟨0, _⟩ => rfl | ⟨1, _⟩ => rfl)
  have e2 : ridx_main_v23 (ix2 b j) i = ix2 i j :=
    funext fun a => Fin.ext (by match a with | ⟨0, _⟩ => rfl | ⟨1, _⟩ => rfl)
  rw [e1, e2, quot_read]

end Cert.Transition.RefRead

end
-- ==== Proof.Finite.lean ====
/-
  The precondition "every float input is finite" says every entry of every argument is a real.

  The printed predicate tests, for each of the six arrays, |x| < +∞ at every entry, takes the conjunction
  over the entries, and then the conjunction of the six results. Read backwards: the final bit is 1, so each
  of the six conjunctions is 1, so each entrywise test is 1 at every index. On the extended reals
  |x| = max x (−x), and max x (−x) < ⊤ excludes both x = ⊤ and x = ⊥, which leaves x a real.
-/
import proofs.«127423_g5935644803188_cont_9to1c4b_610_4_alg».proof.Proof.Spec
import proofs.«127423_g5935644803188_cont_9to1c4b_610_4_alg».proof.Proof.Gen.Pre_finite_inputs
import Idealize.ShloMosaic.Lib.ReduceAll

noncomputable section

namespace Cert.Transition.Finite

open Idealize.ShloMosaic Idealize.ShloMosaic.ValueIdx Cert.Pre_finite_inputs Cert.Transition

/-- The f32 pattern with all exponent bits set and no fraction bits denotes +∞. -/
theorem ofBits_inf : Ideal.ofBits .f32 0x7F800000#32 = (⊤ : EReal) := by
  simp [Ideal.ofBits, Ideal.ieee]

/-- An extended real whose absolute value max a (−a) compares strictly below +∞ is a real. -/
theorem isReal_of_abs_lt_inf (a : EReal)
    (h : Ideal.cmp .olt (max a (-a)) (Ideal.ofBits .f32 0x7F800000#32) = 1#1) : IsReal a := by
  rw [ofBits_inf] at h
  have hlt : max a (-a) < ⊤ := by
    by_contra hn
    simp [Ideal.cmp, hn] at h
  obtain ⟨h1, h2⟩ := max_lt_iff.1 hlt
  induction a using EReal.rec with
  | bot => simp at h2
  | coe r => exact ⟨r, rfl⟩
  | top => simp at h1

/-- The entrywise test of the predicate, read at one index: the entry there is a real. -/
theorem isReal_of_test {s : Shape} (hb : S_.BroadcastsInDim s (![] : Fin 0 → Fin s.rank)) (x : FVec Ideal s .f32) (i : s.Idx)
    (h : cmpf .olt (Host.absf x) (broadcastInDim s ![] hb (constant S_ .f32 0x7F800000#32)) i = 1#1) :
    IsReal (x i) :=
  isReal_of_abs_lt_inf (x i) h

/-- The scalar shape has exactly one index. -/
instance : Subsingleton S_.Idx := ⟨fun a b => funext fun d => d.elim0⟩

variable [Cert.Pre_finite_inputs.Facts]

/-- If the printed predicate is all ones on six arrays at the ideal instance, every entry of each is a real. -/
theorem allReal_of_pre (x0 : FVec Ideal S16x8192 .f32) (x1 : FVec Ideal S8192x128 .f32) (x2 : FVec Ideal S64x128 .f32)
    (x3 : FVec Ideal S64 .f32) (x4 : FVec Ideal S64x128 .f32) (x5 : FVec Ideal S64 .f32)
    (h : Cert.Pre_finite_inputs.fn (F := Ideal) x0 x1 x2 x3 x4 x5 = (fun _ => 1#1)) :
    AllReal x0 ∧ AllReal x1 ∧ AllReal x2 ∧ AllReal x3 ∧ AllReal x4 ∧ AllReal x5 := by
  have h0 := congrFun h ValueIdx.ix0
  dsimp only [Cert.Pre_finite_inputs.fn, Cert.Pre_finite_inputs.fn_part1] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨fun i => isReal_of_test _ x0 i (Host.reduce_andi_all _ _ _ _ _ e0 i),
    fun i => isReal_of_test _ x1 i (Host.reduce_andi_all _ _ _ _ _ e1 i),
    fun i => isReal_of_test _ x2 i (Host.reduce_andi_all _ _ _ _ _ e2 i),
    fun i => isReal_of_test _ x3 i (Host.reduce_andi_all _ _ _ _ _ e3 i),
    fun i => isReal_of_test _ x4 i (Host.reduce_andi_all _ _ _ _ _ e4 i),
    fun i => isReal_of_test _ x5 i (Host.reduce_andi_all _ _ _ _ _ e5 i)⟩

end Cert.Transition.Finite

end
-- ==== Proof.KernelPieces.lean ====
/-
  What each control case of the fused body leaves in the resident output and in the key scratch, as values.

  The body has two cases. At the first grid point it first fills the scratch with the transposed key features
  (`k0_pay1` of the key weight, the embedding table and the key bias) and zeroes the output (`k0_pay2`); at every
  point it then adds to the output the point's contribution (`k0_pay3`), computed from 512 rows of the embedding table,
  the query weight and bias, the scratch, and 512 columns of the belief. So
    first point :  scratch := KT,  out := pay3 (rows, wq, bq, KT, cols, zeros)
    later points:  scratch kept,   out := pay3 (rows, wq, bq, scratch, cols, out).
  The rows and columns are the sub-blocks the body loads at offset 512·(grid coordinate) from buffers that hold whole arrays.
-/
import proofs.«127423_g5935644803188_cont_9to1c4b_610_4_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.Transition.Pieces

open Cert.KernelIdeal Cert.KernelIdeal.Gen

variable {F : FTy → Type} [FloatOps F]

theorem hz : (![0, 0] : Fin 2 → Nat) = fun _ => 0 := funext fun a => by fin_cases a <;> rfl

/-- The 512 rows of an [8192, 128] array that the body loads at grid coordinate `i`. -/
abbrev rowsAt (i : grid0.Coords) (x1 : Vec F S8192x128 .f32) : Vec F S512x128 .f32 :=
  View.ld x1 (Rect.unit (s := S8192x128) (k0_off1 i) S512x128.size (k0_off1_inb i))

/-- The 512 columns of a [16, 8192] array that the body loads at grid coordinate `i`. -/
abbrev colsAt (i : grid0.Coords) (x0 : Vec F S16x8192 .f32) : Vec F S16x512 .f32 :=
  View.ld x0 (Rect.unit (s := S16x8192) (k0_off2 i) S16x512.size (k0_off2_inb i))

/-- A later point: the output becomes the update of what it held, the scratch read as it was left. -/
theorem out_B (c : Dev nD) (i : grid0.Coords) (a1 : Memref sig .tc .vmem S16x8192 .f32) (h1 : a1.IsWhole) (a2 : Memref sig .tc .vmem S8192x128 .f32) (h2 : a2.IsWhole) (a3 : Memref sig .tc .vmem S64x128 .f32) (h3 : a3.IsWhole) (a4 : Memref sig .tc .vmem S1x64 .f32) (h4 : a4.IsWhole) (a5 : Memref sig .tc .vmem S64x128 .f32) (h5 : a5.IsWhole) (a6 : Memref sig .tc .vmem S64x1 .f32) (h6 : a6.IsWhole) (a7 : Memref sig .tc .vmem S16x8192 .f32) (h7 : a7.IsWhole) (a8 : Memref sig .tc .vmem S64x8192 .bf16) (h8 : a8.IsWhole) (hc : ¬cond0_0 i) (x0 : Vec F S16x8192 .f32) (x1 : Vec F S8192x128 .f32) (x2 : Vec F S64x128 .f32) (x3 : Vec F S1x64 .f32) (x4 : Vec F S64x128 .f32) (x5 : Vec F S64x1 .f32) (xo6 : Vec F S16x8192 .f32) (xs0 : Vec F S64x8192 .bf16) :
    out0_B_6 c i a1 h1 a2 h2 a3 h3 a4 h4 a5 h5 a6 h6 a7 h7 a8 h8 hc x0 x1 x2 x3 x4 x5 xo6 xs0 = k0_pay3 (rowsAt i x1) x2 x3 xs0 (colsAt i x0) xo6 := by
  unfold out0_B_6
  rw [View.read_writes_eq_canon _ _ _ (cover0_B_6 c i a1 h1 a2 h2 a3 h3 a4 h4 a5 h5 a6 h6 a7 h7 a8 h8 hc x0 x1 x2 x3 x4 x5 xo6 xs0)]
  unfold kernelRun0_B
  dsimp only
  sl_unfold_words
  rw [View.canon_unit_zero hz]
  simp only [View.readAt_eq_ld, h1.read_unread, h2.read_unread, h3.read_unread, h4.read_unread, h7.read_unread, h8.read_unread,
    View.ld_unit_zero (S := S64x128) hz, View.ld_unit_zero (S := S1x64) hz, View.ld_unit_zero (S := S64x8192) hz, View.ld_unit_zero (S := S16x8192) hz]
  rfl

/-- The first point fills the scratch with the transposed key features. -/
theorem sout_A (c : Dev nD) (i : grid0.Coords) (a1 : Memref sig .tc .vmem S16x8192 .f32) (h1 : a1.IsWhole) (a2 : Memref sig .tc .vmem S8192x128 .f32) (h2 : a2.IsWhole) (a3 : Memref sig .tc .vmem S64x128 .f32) (h3 : a3.IsWhole) (a4 : Memref sig .tc .vmem S1x64 .f32) (h4 : a4.IsWhole) (a5 : Memref sig .tc .vmem S64x128 .f32) (h5 : a5.IsWhole) (a6 : Memref sig .tc .vmem S64x1 .f32) (h6 : a6.IsWhole) (a7 : Memref sig .tc .vmem S16x8192 .f32) (h7 : a7.IsWhole) (a8 : Memref sig .tc .vmem S64x8192 .bf16) (h8 : a8.IsWhole) (hc : cond0_0 i) (x0 : Vec F S16x8192 .f32) (x1 : Vec F S8192x128 .f32) (x2 : Vec F S64x128 .f32) (x3 : Vec F S1x64 .f32) (x4 : Vec F S64x128 .f32) (x5 : Vec F S64x1 .f32) :
    sout0_A_0 c i a1 h1 a2 h2 a3 h3 a4 h4 a5 h5 a6 h6 a7 h7 a8 h8 hc x0 x1 x2 x3 x4 x5 = k0_pay1 x4 x1 x5 := by
  unfold sout0_A_0
  rw [View.read_writes_eq_canon _ _ _ (scover0_A_0 c i a1 h1 a2 h2 a3 h3 a4 h4 a5 h5 a6 h6 a7 h7 a8 h8 hc x0 x1 x2 x3 x4 x5)]
  unfold kernelRun0_A
  dsimp only
  sl_unfold_words
  rw [View.canon_unit_zero hz]
  simp only [View.readAt_eq_ld, h2.read_unread, h5.read_unread, h6.read_unread,
    View.ld_unit_zero (S := S64x128) hz, View.ld_unit_zero (S := S8192x128) hz, View.ld_unit_zero (S := S64x1) hz]

/-- The first point leaves in the output the update of the zero block, the scratch read back as just filled. -/
theorem out_A (c : Dev nD) (i : grid0.Coords) (a1 : Memref sig .tc .vmem S16x8192 .f32) (h1 : a1.IsWhole) (a2 : Memref sig .tc .vmem S8192x128 .f32) (h2 : a2.IsWhole) (a3 : Memref sig .tc .vmem S64x128 .f32) (h3 : a3.IsWhole) (a4 : Memref sig .tc .vmem S1x64 .f32) (h4 : a4.IsWhole) (a5 : Memref sig .tc .vmem S64x128 .f32) (h5 : a5.IsWhole) (a6 : Memref sig .tc .vmem S64x1 .f32) (h6 : a6.IsWhole) (a7 : Memref sig .tc .vmem S16x8192 .f32) (h7 : a7.IsWhole) (a8 : Memref sig .tc .vmem S64x8192 .bf16) (h8 : a8.IsWhole) (hc : cond0_0 i) (x0 : Vec F S16x8192 .f32) (x1 : Vec F S8192x128 .f32) (x2 : Vec F S64x128 .f32) (x3 : Vec F S1x64 .f32) (x4 : Vec F S64x128 .f32) (x5 : Vec F S64x1 .f32) :
    out0_A_6 c i a1 h1 a2 h2 a3 h3 a4 h4 a5 h5 a6 h6 a7 h7 a8 h8 hc x0 x1 x2 x3 x4 x5 = k0_pay3 (rowsAt i x1) x2 x3 (k0_pay1 x4 x1 x5) (colsAt i x0) k0_pay2 := by
  unfold out0_A_6
  rw [View.read_writes_eq_canon _ _ _ (cover0_A_6 c i a1 h1 a2 h2 a3 h3 a4 h4 a5 h5 a6 h6 a7 h7 a8 h8 hc x0 x1 x2 x3 x4 x5)]
  unfold kernelRun0_A
  dsimp only
  sl_unfold_words
  rw [View.canon_cons_unit_zero (S := S16x8192) hz]
  simp only [View.readCov_unit_zero (S := S64x8192) _ hz, View.readCov_unit_zero (S := S16x8192) _ hz,
    View.readAt_eq_ld, h1.read_unread, h2.read_unread, h3.read_unread, h4.read_unread, h5.read_unread, h6.read_unread,
    View.ld_unit_zero (S := S64x128) hz, View.ld_unit_zero (S := S1x64) hz, View.ld_unit_zero (S := S8192x128) hz, View.ld_unit_zero (S := S64x1) hz]
  rfl

end Cert.Transition.Pieces

end
-- ==== Proof.LibMatmulAt.lean ====
/-
  A `tpu.matmul` into a zero accumulator, read at an output index, at the ideal instance: the plain sum of products
  over the one contracted axis, for the two rank-2 layouts a kernel uses.

  * `transposedRhs M K N` contracts the last axis of an M×K left operand with the last axis of an N×K right operand:
      out (p, q) = ∑ k, l (p, k) · r (q, k).
  * `plain M K N` contracts the last axis of an M×K left operand with the first axis of a K×N right operand:
      out (p, q) = ∑ k, l (p, k) · r (k, q).
  Both are stated for every M, K, N and every pair of operand formats, so one statement serves every tiling; a printed
  record with the same dimension numbers is one of these two by `rfl`.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {M K N : Nat}

/-! ### Last axis with last axis -/

theorem tr_lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem tr_lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem tr_rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem tr_rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- `out (p, q) = ∑ k, l (p, k) · r (q, k)`. -/
theorem matmul_transposedRhs_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs_0 _ _
      | ⟨1, _⟩ => exact (tr_rhs_1 _ _).trans hk)
  rw [el, er]

/-! ### Last axis with first axis -/

theorem pl_lhs_0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem pl_lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem pl_rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem pl_rhs_1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `out (p, q) = ∑ k, l (p, k) · r (k, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

end Idealize.ShloMosaic.MatmulAt

end
-- ==== Proof.KernelPayload.lean ====
/-
  The fused body's two arithmetic payloads, read at one index, at the ideal instance.

  `k0_pay1` (the scratch fill) at (h, s) is the key feature  (∑ d, wk h d · emb s d) + bk h.
  `k0_pay3` (the output update) at (b, j), for a point holding 512 embedding rows `v5`, the query weight and bias
  `v6, v8`, a scratch `v13` (a [64, 8192] array of key features), 512 belief columns `v21` and the old output `v25`, is
      v25 b j + ∑ r, (v21 b r / ∑ s, w r s) · w r j,      w r s = exp (∑ h, ((∑ d, v5 r d · v6 h d) + v8 h) · v13 h s),
  the row sums `∑ s, w r s` being what the product of a row of ones with `w` computes.
  Changes of float format are the identity here, so the bf16 casts disappear.
-/
import proofs.«127423_g5935644803188_cont_9to1c4b_610_4_alg».proof.Proof.LibMatmulAt
import proofs.«127423_g5935644803188_cont_9to1c4b_610_4_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.Transition.Payload

open Cert.KernelIdeal Cert.KernelIdeal.Gen Idealize.ShloMosaic Idealize.ShloMosaic.ValueIdx Idealize.ShloMosaic.MatmulAt

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bf16 word of one denotes one. -/
theorem one_bf16 : Ideal.ofBits .bf16 0x3F80#16 = 1 := by
  simp [Ideal.ofBits, Ideal.ieee]
  exact_mod_cast (by norm_num : (128 : ℝ) * ((2 : ℝ) ^ 7)⁻¹ = 1)

/-! ### The scratch fill -/

theorem pay1_apply (x4 : Vec Ideal S64x128 .f32) (x1 : Vec Ideal S8192x128 .f32) (x5 : Vec Ideal S64x1 .f32)
    (h : Fin 64) (s : Fin 8192) :
    k0_pay1 (F := Ideal) x4 x1 x5 (ix2 h s) = (∑ d : Fin 128, x4 (ix2 h d) * x1 (ix2 s d)) + x5 (ix2 h (0 : Fin 1)) := by
  unfold k0_pay1
  simp only [shapeCast_self]
  show FloatOps.matmul (F := Ideal) (φ₁ := .f32) (φ₂ := .f32) (DotDims.transposedRhs 64 128 8192) none x4 x1 (constant ⟨2, ![64, 8192]⟩ .f32 0x00000000#32) (ix2 h s)
      + broadcastTo ⟨2, ![64, 8192]⟩ x5 broadcasts_S64x1_S64x8192 (ix2 h s) = _
  rw [matmul_transposedRhs_apply, broadcastTo_a1_ab_apply]

/-! ### The output update -/

/-- The point's query feature `h` of its row `r`. -/
def qblk (v5 : Vec Ideal S512x128 .f32) (v6 : Vec Ideal S64x128 .f32) (v8 : Vec Ideal S1x64 .f32) (r : Fin 512) (h : Fin 64) : EReal :=
  (∑ d : Fin 128, v5 (ix2 r d) * v6 (ix2 h d)) + v8 (ix2 (0 : Fin 1) h)

/-- The point's unnormalised weight from its row `r` to state `s`. -/
def wblk (v5 : Vec Ideal S512x128 .f32) (v6 : Vec Ideal S64x128 .f32) (v8 : Vec Ideal S1x64 .f32) (v13 : Vec Ideal S64x8192 .bf16)
    (r : Fin 512) (s : Fin 8192) : EReal :=
  Ideal.exp (∑ h : Fin 64, qblk v5 v6 v8 r h * v13 (ix2 h s))

section
variable (v5 : Vec Ideal S512x128 .f32) (v6 : Vec Ideal S64x128 .f32) (v8 : Vec Ideal S1x64 .f32) (v13 : Vec Ideal S64x8192 .bf16)
  (v21 : Vec Ideal S16x512 .f32) (v25 : Vec Ideal S16x8192 .f32)

/-- The query block, as the body computes it. -/
def qArr : FVec Ideal S512x64 .f32 :=
  addf (matmul (φ₁ := .f32) (φ₂ := .f32) dot_S512x128_S64x128_S512x64_1_1_0_0_n_n none v5 v6 (constant S512x64 .f32 0x00000000#32))
    (broadcastTo S512x64 v8 broadcasts_S1x64_S512x64)

/-- The weight block. -/
def wArr : FVec Ideal S512x8192 .bf16 :=
  truncf .bf16 (exp (matmul (φ₁ := .bf16) (φ₂ := .bf16) dot_S512x64_S64x8192_S512x8192_1_0_0_1_n_n none (truncf .bf16 (qArr v5 v6 v8) bitsLt_bf16_f32) v13
    (constant S512x8192 .f32 0x00000000#32))) bitsLt_bf16_f32

/-- The row sums of the weight block, as a row. -/
def zArr : FVec Ideal S1x512 .f32 :=
  matmul (φ₁ := .bf16) (φ₂ := .bf16) dot_S1x8192_S512x8192_S1x512_1_1_0_0_n_n none (broadcast S1x8192 (Scalar.ofBits (F := Ideal) .bf16 0x3F80#16)) (wArr v5 v6 v8 v13)
    (constant S1x512 .f32 0x00000000#32)

/-- The belief columns divided by the row sums. -/
def nArr : FVec Ideal S16x512 .bf16 :=
  truncf .bf16 (divf v21 (broadcastTo S16x512 (zArr v5 v6 v8 v13) broadcasts_S1x512_S16x512)) bitsLt_bf16_f32

theorem qArr_apply (r : Fin 512) (h : Fin 64) : qArr v5 v6 v8 (ix2 r h) = qblk v5 v6 v8 r h := by
  unfold qArr qblk
  show FloatOps.matmul (F := Ideal) (φ₁ := .f32) (φ₂ := .f32) (DotDims.transposedRhs 512 128 64) none v5 v6 (constant ⟨2, ![512, 64]⟩ .f32 0x00000000#32) (ix2 r h)
      + broadcastTo ⟨2, ![512, 64]⟩ v8 broadcasts_S1x64_S512x64 (ix2 r h) = _
  rw [matmul_transposedRhs_apply, broadcastTo_1b_ab_apply]

theorem wArr_apply (r : Fin 512) (s : Fin 8192) : wArr v5 v6 v8 v13 (ix2 r s) = wblk v5 v6 v8 v13 r s := by
  unfold wArr wblk
  show Ideal.exp (FloatOps.matmul (F := Ideal) (φ₁ := .bf16) (φ₂ := .bf16) (DotDims.plain 512 64 8192) none (qArr v5 v6 v8) v13 (constant ⟨2, ![512, 8192]⟩ .f32 0x00000000#32) (ix2 r s)) = _
  rw [matmul_plain_apply]
  refine congrArg Ideal.exp (Finset.sum_congr rfl fun h _ => ?_)
  rw [qArr_apply]

theorem zArr_apply (r : Fin 512) : zArr v5 v6 v8 v13 (ix2 (0 : Fin 1) r) = ∑ s : Fin 8192, wblk v5 v6 v8 v13 r s := by
  unfold zArr
  show FloatOps.matmul (F := Ideal) (φ₁ := .bf16) (φ₂ := .bf16) (DotDims.transposedRhs 1 8192 512) none (fun _ => Ideal.ofBits .bf16 0x3F80#16) (wArr v5 v6 v8 v13)
    (constant ⟨2, ![1, 512]⟩ .f32 0x00000000#32) (ix2 (0 : Fin 1) r) = _
  rw [matmul_transposedRhs_apply]
  refine Finset.sum_congr rfl fun s _ => ?_
  rw [one_bf16, one_mul, wArr_apply]

theorem nArr_apply (b : Fin 16) (r : Fin 512) :
    nArr v5 v6 v8 v13 v21 (ix2 b r) = Ideal.div (v21 (ix2 b r)) (∑ s : Fin 8192, wblk v5 v6 v8 v13 r s) := by
  unfold nArr
  show Ideal.div (v21 (ix2 b r)) (broadcastTo ⟨2, ![16, 512]⟩ (zArr v5 v6 v8 v13) broadcasts_S1x512_S16x512 (ix2 b r)) = _
  rw [broadcastTo_1b_ab_apply, zArr_apply]

/-- The update payload is the old output plus the product of the normalised belief block with the weight block. -/
theorem pay3_eq : k0_pay3 (F := Ideal) v5 v6 v8 v13 v21 v25
    = addf v25 (matmul (φ₁ := .bf16) (φ₂ := .bf16) dot_S16x512_S512x8192_S16x8192_1_0_0_1_n_n none (nArr v5 v6 v8 v13 v21) (wArr v5 v6 v8 v13) (constant S16x8192 .f32 0x00000000#32)) := by
  unfold k0_pay3 nArr zArr wArr qArr
  simp only [shapeCast_self]

theorem pay3_apply (b : Fin 16) (j : Fin 8192) :
    k0_pay3 (F := Ideal) v5 v6 v8 v13 v21 v25 (ix2 b j)
      = v25 (ix2 b j) + ∑ r : Fin 512, Ideal.div (v21 (ix2 b r)) (∑ s : Fin 8192, wblk v5 v6 v8 v13 r s) * wblk v5 v6 v8 v13 r j := by
  rw [pay3_eq]
  show v25 (ix2 b j) + FloatOps.matmul (F := Ideal) (φ₁ := .bf16) (φ₂ := .bf16) (DotDims.plain 16 512 8192) none (nArr v5 v6 v8 v13 v21) (wArr v5 v6 v8 v13)
    (constant ⟨2, ![16, 8192]⟩ .f32 0x00000000#32) (ix2 b j) = _
  rw [matmul_plain_apply]
  refine congrArg (v25 (ix2 b j) + ·) (Finset.sum_congr rfl fun r _ => ?_)
  rw [nArr_apply, wArr_apply]

end

end Cert.Transition.Payload

end
-- ==== Proof.KernelAlgebra.lean ====
/-
  One grid point's update, and the sixteen of them together, in terms of the specification.

  Point `k` of the grid handles the 512 states `512·k + r`. If the blocks the body holds at that point are the
  corresponding rows of the embedding table and columns of the belief, the query weight and bias, and a scratch holding
  every key feature, then the amount the point adds to the output at (b, j) is  ∑ r, term b j (512·k + r).
  Adding the sixteen amounts in any grouping gives  ∑ i, term b j i,  because addition of extended reals is
  commutative and associative.
-/
import proofs.«127423_g5935644803188_cont_9to1c4b_610_4_alg».proof.Proof.Spec
import proofs.«127423_g5935644803188_cont_9to1c4b_610_4_alg».proof.Proof.KernelPayload
import Mathlib.Algebra.BigOperators.Fin
import Mathlib.Logic.Equiv.Fin.Basic

noncomputable section

open scoped BigOperators

namespace Cert.Transition

open Cert.KernelIdeal Idealize.ShloMosaic Idealize.ShloMosaic.ValueIdx Cert.Transition.Payload

/-- State `512·k + r`: row `r` of block `k`. -/
def row (k : Fin 16) (r : Fin 512) : Fin 8192 := ⟨512 * k.val + r.val, by have := k.isLt; have := r.isLt; omega⟩

theorem row_val (k : Fin 16) (r : Fin 512) : (row k r).val = 512 * k.val + r.val := rfl

/-- A sum over the 8192 states, block by block. -/
theorem sum_rows {M : Type} [AddCommMonoid M] (f : Fin 8192 → M) :
    ∑ i : Fin 8192, f i = ∑ k : Fin 16, ∑ r : Fin 512, f (row k r) := by
  rw [← Fintype.sum_prod_type' (f := fun k r => f (row k r))]
  refine (Fintype.sum_equiv (finProdFinEquiv (m := 16) (n := 512)) (fun x => f (row x.1 x.2)) f (fun x => ?_)).symm
  refine congrArg f (Fin.ext ?_)
  rw [row_val]
  show 512 * x.1.val + x.2.val = (finProdFinEquiv x).val
  rw [finProdFinEquiv_apply_val]
  omega

section
variable (bel : Bel) (emb : Emb) (wk : Wt) (bk : Bias) (wq : Wt) (bq : Bias)

/-- What block `k` contributes at (b, j). -/
def blockTerm (k : Fin 16) (b : Fin 16) (j : Fin 8192) : EReal := ∑ r : Fin 512, term bel emb wk bk wq bq b j (row k r)

/-- The new belief is the sum of the sixteen blocks' contributions. -/
theorem prior_eq_blocks (b : Fin 16) (j : Fin 8192) :
    prior bel emb wk bk wq bq (ix2 b j) = ∑ k : Fin 16, blockTerm bel emb wk bk wq bq k b j := by
  show ∑ i : Fin 8192, term bel emb wk bk wq bq b j i = _
  rw [sum_rows]
  rfl

/-- With the point's blocks identified, its weight block is the specification's weight at the block's rows. -/
theorem wblk_eq (k : Fin 16) (v5 : Vec Ideal S512x128 .f32) (v6 : Vec Ideal S64x128 .f32) (v8 : Vec Ideal S1x64 .f32)
    (v13 : Vec Ideal S64x8192 .bf16)
    (h5 : ∀ (r : Fin 512) (d : Fin 128), v5 (ix2 r d) = emb (ix2 (row k r) d))
    (h6 : ∀ (h : Fin 64) (d : Fin 128), v6 (ix2 h d) = wq (ix2 h d))
    (h8 : ∀ h : Fin 64, v8 (ix2 (0 : Fin 1) h) = bq (ix1 h))
    (h13 : ∀ (h : Fin 64) (s : Fin 8192), v13 (ix2 h s) = key emb wk bk s h)
    (r : Fin 512) (s : Fin 8192) : wblk v5 v6 v8 v13 r s = wgt emb wk bk wq bq (row k r) s := by
  unfold wblk wgt logit
  refine congrArg Ideal.exp (Finset.sum_congr rfl fun h _ => ?_)
  rw [h13]
  refine congrArg (· * key emb wk bk s h) ?_
  unfold qblk qry
  rw [h8]
  refine congrArg (· + bq (ix1 h)) (Finset.sum_congr rfl fun d _ => ?_)
  rw [h5, h6]

/-- So what the point adds at (b, j) is its block's contribution. -/
theorem update_eq (k : Fin 16) (v5 : Vec Ideal S512x128 .f32) (v6 : Vec Ideal S64x128 .f32) (v8 : Vec Ideal S1x64 .f32)
    (v13 : Vec Ideal S64x8192 .bf16) (v21 : Vec Ideal S16x512 .f32)
    (h5 : ∀ (r : Fin 512) (d : Fin 128), v5 (ix2 r d) = emb (ix2 (row k r) d))
    (h6 : ∀ (h : Fin 64) (d : Fin 128), v6 (ix2 h d) = wq (ix2 h d))
    (h8 : ∀ h : Fin 64, v8 (ix2 (0 : Fin 1) h) = bq (ix1 h))
    (h13 : ∀ (h : Fin 64) (s : Fin 8192), v13 (ix2 h s) = key emb wk bk s h)
    (h21 : ∀ (b : Fin 16) (r : Fin 512), v21 (ix2 b r) = bel (ix2 b (row k r)))
    (b : Fin 16) (j : Fin 8192) :
    ∑ r : Fin 512, Ideal.div (v21 (ix2 b r)) (∑ s : Fin 8192, wblk v5 v6 v8 v13 r s) * wblk v5 v6 v8 v13 r j
      = blockTerm bel emb wk bk wq bq k b j := by
  unfold blockTerm term mass
  refine Finset.sum_congr rfl fun r _ => ?_
  rw [h21, wblk_eq emb wk bk wq bq k v5 v6 v8 v13 h5 h6 h8 h13 r j]
  refine congrArg (fun z => Ideal.div (bel (ix2 b (row k r))) z * wgt emb wk bk wq bq (row k r) j) ?_
  exact Finset.sum_congr rfl fun s _ => wblk_eq emb wk bk wq bq k v5 v6 v8 v13 h5 h6 h8 h13 r s

end

end Cert.Transition

end
-- ==== Proof.KernelValue.lean ====
/-
  The idealized kernel's run, read: its result array ends at `prior` of the argument arrays.

  Every input window stages its whole array at every point, so each block the body is handed is the array itself (the two
  biases through the reshapes the host does before the call: `bq` as a row, `bk` as a column). The body loads, at point
  `t`, the 512 embedding rows and 512 belief columns at offset 512·t. By induction on the point, after point `n` the
  scratch holds every key feature and the resident output holds the contributions of blocks 0 … n; the one write-back,
  after the last point, writes the whole array, which is therefore the sum of all sixteen contributions: `prior`.
-/
import proofs.«127423_g5935644803188_cont_9to1c4b_610_4_alg».proof.Proof.Spec
import proofs.«127423_g5935644803188_cont_9to1c4b_610_4_alg».proof.Proof.KernelPieces
import proofs.«127423_g5935644803188_cont_9to1c4b_610_4_alg».proof.Proof.KernelPayload
import proofs.«127423_g5935644803188_cont_9to1c4b_610_4_alg».proof.Proof.KernelAlgebra
import proofs.«127423_g5935644803188_cont_9to1c4b_610_4_alg».proof.Proof.Gen.KernelIdeal.Value
import Idealize.ShloMosaic.Lib.Pipeline.Value
import Idealize.ShloMosaic.Lib.StableHlo.Run
import Idealize.ShloMosaic.Lib.Tactic
import Mathlib.Algebra.BigOperators.Fin

set_option maxRecDepth 16384

noncomputable section

open scoped BigOperators

namespace Cert.Transition.KernelValue

open Cert.KernelIdeal Cert.KernelIdeal.Gen Idealize.ShloMosaic Idealize.ShloMosaic.TcCoe Idealize.SL.Sem
open Idealize.ShloMosaic.Pipeline (Dat)
open Idealize.ShloMosaic.ValueIdx
open Cert.Transition Cert.Transition.Pieces Cert.Transition.Payload

variable (m : (ℓ : Loc nD τ sig) → Buf (Elt Ideal) ℓ) (ρ : Dev nD → PrngReg)

/-! ### The grid, decided once -/

/-- The body's two point-dependent loads start at row, respectively column, 512·t. -/
theorem offs : ∀ t : Fin cfg0.N, k0_off1 (grid0.coords t) = ![512 * t.val, 0] ∧ k0_off2 (grid0.coords t) = ![0, 512 * t.val] :=
  (by decide +kernel : ∀ t : Fin grid0.N, k0_off1 (grid0.coords t) = ![512 * t.val, 0] ∧ k0_off2 (grid0.coords t) = ![0, 512 * t.val])

/-- Every window's block index is (0, 0) at every point. -/
theorem idx0 : ∀ (t : Fin cfg0.N) (a : Fin 2), win0_0.index t a = 0 := (by decide +kernel : ∀ (t : Fin grid0.N) (a : Fin 2), win0_0.index t a = 0)
theorem idx1 : ∀ (t : Fin cfg0.N) (a : Fin 2), win0_1.index t a = 0 := (by decide +kernel : ∀ (t : Fin grid0.N) (a : Fin 2), win0_1.index t a = 0)
theorem idx2 : ∀ (t : Fin cfg0.N) (a : Fin 2), win0_2.index t a = 0 := (by decide +kernel : ∀ (t : Fin grid0.N) (a : Fin 2), win0_2.index t a = 0)
theorem idx3 : ∀ (t : Fin cfg0.N) (a : Fin 2), win0_3.index t a = 0 := (by decide +kernel : ∀ (t : Fin grid0.N) (a : Fin 2), win0_3.index t a = 0)
theorem idx4 : ∀ (t : Fin cfg0.N) (a : Fin 2), win0_4.index t a = 0 := (by decide +kernel : ∀ (t : Fin grid0.N) (a : Fin 2), win0_4.index t a = 0)
theorem idx5 : ∀ (t : Fin cfg0.N) (a : Fin 2), win0_5.index t a = 0 := (by decide +kernel : ∀ (t : Fin grid0.N) (a : Fin 2), win0_5.index t a = 0)
theorem idx6 : ∀ (t : Fin cfg0.N) (a : Fin 2), win0_6.index t a = 0 := (by decide +kernel : ∀ (t : Fin grid0.N) (a : Fin 2), win0_6.index t a = 0)

/-! ### The blocks the body is handed are the arrays -/

/-- The belief block. -/
abbrev belB (c : Dev nD) (t : Fin cfg0.N) : Vec Ideal S16x8192 .f32 := iblk m c 0 t
/-- The embedding block. -/
abbrev embB (c : Dev nD) (t : Fin cfg0.N) : Vec Ideal S8192x128 .f32 := iblk m c 1 t
/-- The query-weight block. -/
abbrev wqB (c : Dev nD) (t : Fin cfg0.N) : Vec Ideal S64x128 .f32 := iblk m c 2 t
/-- The query-bias block, a row. -/
abbrev bqB (c : Dev nD) (t : Fin cfg0.N) : Vec Ideal S1x64 .f32 := iblk m c 3 t
/-- The key-weight block. -/
abbrev wkB (c : Dev nD) (t : Fin cfg0.N) : Vec Ideal S64x128 .f32 := iblk m c 4 t
/-- The key-bias block, a column. -/
abbrev bkB (c : Dev nD) (t : Fin cfg0.N) : Vec Ideal S64x1 .f32 := iblk m c 5 t

theorem belB_eq (c : Dev nD) (t : Fin cfg0.N) : belB m c t = m ((c : Thread nD τ).loc main_arg0) := by
  have hz' : (fun a => win0_0.index t a * main_arg0.ty.shape.size a) = fun _ => 0 := funext fun a => by rw [idx0 t a, Nat.zero_mul]
  exact (Memref.read_access_unit_zero (Elt Ideal) main_arg0 hz' (fun a => by rw [congrFun hz' a]; simp) (V m c main_arg0)).trans (V_main_arg0 m c)

theorem embB_eq (c : Dev nD) (t : Fin cfg0.N) : embB m c t = m ((c : Thread nD τ).loc main_arg1) := by
  have hz' : (fun a => win0_1.index t a * main_arg1.ty.shape.size a) = fun _ => 0 := funext fun a => by rw [idx1 t a, Nat.zero_mul]
  exact (Memref.read_access_unit_zero (Elt Ideal) main_arg1 hz' (fun a => by rw [congrFun hz' a]; simp) (V m c main_arg1)).trans (V_main_arg1 m c)

theorem wqB_eq (c : Dev nD) (t : Fin cfg0.N) : wqB m c t = m ((c : Thread nD τ).loc main_arg4) := by
  have hz' : (fun a => win0_2.index t a * main_arg4.ty.shape.size a) = fun _ => 0 := funext fun a => by rw [idx2 t a, Nat.zero_mul]
  exact (Memref.read_access_unit_zero (Elt Ideal) main_arg4 hz' (fun a => by rw [congrFun hz' a]; simp) (V m c main_arg4)).trans (V_main_arg4 m c)

theorem wkB_eq (c : Dev nD) (t : Fin cfg0.N) : wkB m c t = m ((c : Thread nD τ).loc main_arg2) := by
  have hz' : (fun a => win0_4.index t a * main_arg2.ty.shape.size a) = fun _ => 0 := funext fun a => by rw [idx4 t a, Nat.zero_mul]
  exact (Memref.read_access_unit_zero (Elt Ideal) main_arg2 hz' (fun a => by rw [congrFun hz' a]; simp) (V m c main_arg2)).trans (V_main_arg2 m c)

/-- The row the host reshapes the query bias into, as the region finds it. -/
theorem V_bq (c : Dev nD) : (V m c main_v0 : S1x64.Idx → EReal) = shapeCast S1x64 (m ((c : Thread nD τ).loc main_arg5)) shapeCasts_S64_S1x64 := by
  dsimp only [Gen.V, Gen.hostOps0]; after_results; rfl

/-- The column the host reshapes the key bias into, as the region finds it. -/
theorem V_bk (c : Dev nD) : (V m c main_v1 : S64x1.Idx → EReal) = shapeCast S64x1 (m ((c : Thread nD τ).loc main_arg3)) shapeCasts_S64_S64x1 := by
  dsimp only [Gen.V, Gen.hostOps0]; after_results; rfl

theorem bqB_apply (c : Dev nD) (t : Fin cfg0.N) (h : Fin 64) : bqB m c t (ix2 (0 : Fin 1) h) = m ((c : Thread nD τ).loc main_arg5) (ix1 h) := by
  have hz' : (fun a => win0_3.index t a * main_v0.ty.shape.size a) = fun _ => 0 := funext fun a => by rw [idx3 t a, Nat.zero_mul]
  have e : bqB m c t = V m c main_v0 := Memref.read_access_unit_zero (Elt Ideal) main_v0 hz' (fun a => by rw [congrFun hz' a]; simp) (V m c main_v0)
  rw [e, V_bq]
  refine shapeCast_apply _ _ _ _ ?_
  show ((⟨1, ![64]⟩ : Shape).rowMajor (ix1 h)).val = ((⟨2, ![1, 64]⟩ : Shape).rowMajor (ix2 (0 : Fin 1) h)).val
  rw [Shape.rowMajor_val_one, Shape.rowMajor_val_two]
  show h.val = 0 * 64 + h.val
  omega

theorem bkB_apply (c : Dev nD) (t : Fin cfg0.N) (h : Fin 64) : bkB m c t (ix2 h (0 : Fin 1)) = m ((c : Thread nD τ).loc main_arg3) (ix1 h) := by
  have hz' : (fun a => win0_5.index t a * main_v1.ty.shape.size a) = fun _ => 0 := funext fun a => by rw [idx5 t a, Nat.zero_mul]
  have e : bkB m c t = V m c main_v1 := Memref.read_access_unit_zero (Elt Ideal) main_v1 hz' (fun a => by rw [congrFun hz' a]; simp) (V m c main_v1)
  rw [e, V_bk]
  refine shapeCast_apply _ _ _ _ ?_
  show ((⟨1, ![64]⟩ : Shape).rowMajor (ix1 h)).val = ((⟨2, ![64, 1]⟩ : Shape).rowMajor (ix2 h (0 : Fin 1))).val
  rw [Shape.rowMajor_val_one, Shape.rowMajor_val_two]
  show h.val = h.val * 1 + 0
  omega

/-! ### What the scratch and the output hold after each point -/

/-- The argument arrays as launched on core `c`, by their roles. -/
abbrev aBel (c : Dev nD) : Bel := m ((c : Thread nD τ).loc main_arg0)
abbrev aEmb (c : Dev nD) : Emb := m ((c : Thread nD τ).loc main_arg1)
abbrev aWk (c : Dev nD) : Wt := m ((c : Thread nD τ).loc main_arg2)
abbrev aBk (c : Dev nD) : Bias := m ((c : Thread nD τ).loc main_arg3)
abbrev aWq (c : Dev nD) : Wt := m ((c : Thread nD τ).loc main_arg4)
abbrev aBq (c : Dev nD) : Bias := m ((c : Thread nD τ).loc main_arg5)

/-- The rows the body loads at point `t` are the embedding rows 512·t + r. -/
theorem rows_apply (c : Dev nD) (t : Fin cfg0.N) (k : Fin 16) (hk : k.val = t.val) (r : Fin 512) (d : Fin 128) :
    rowsAt (grid0.coords t) (embB m c t) (ix2 r d) = aEmb m c (ix2 (row k r) d) := by
  show embB m c t ((Rect.unit (s := S8192x128) (k0_off1 (grid0.coords t)) S512x128.size (k0_off1_inb (grid0.coords t))).idx (ix2 r d)) = _
  rw [embB_eq]
  refine congrArg (aEmb m c) (funext fun a => Fin.ext ?_)
  match a with
  | ⟨0, _⟩ =>
    show k0_off1 (grid0.coords t) 0 + 1 * r.val = 512 * k.val + r.val
    rw [(offs t).1, hk]; show 512 * t.val + 1 * r.val = _; omega
  | ⟨1, _⟩ =>
    show k0_off1 (grid0.coords t) 1 + 1 * d.val = d.val
    rw [(offs t).1]; show 0 + 1 * d.val = _; omega

/-- The columns the body loads at point `t` are the belief columns 512·t + r. -/
theorem cols_apply (c : Dev nD) (t : Fin cfg0.N) (k : Fin 16) (hk : k.val = t.val) (b : Fin 16) (r : Fin 512) :
    colsAt (grid0.coords t) (belB m c t) (ix2 b r) = aBel m c (ix2 b (row k r)) := by
  show belB m c t ((Rect.unit (s := S16x8192) (k0_off2 (grid0.coords t)) S16x512.size (k0_off2_inb (grid0.coords t))).idx (ix2 b r)) = _
  rw [belB_eq]
  refine congrArg (aBel m c) (funext fun a => Fin.ext ?_)
  match a with
  | ⟨0, _⟩ =>
    show k0_off2 (grid0.coords t) 0 + 1 * b.val = b.val
    rw [(offs t).2]; show 0 + 1 * b.val = _; omega
  | ⟨1, _⟩ =>
    show k0_off2 (grid0.coords t) 1 + 1 * r.val = 512 * k.val + r.val
    rw [(offs t).2, hk]; show 512 * t.val + 1 * r.val = _; omega

/-- The scratch fill, read at (h, s), is the key feature. -/
theorem fill_apply (c : Dev nD) (t : Fin cfg0.N) (h : Fin 64) (s : Fin 8192) :
    k0_pay1 (F := Ideal) (wkB m c t) (embB m c t) (bkB m c t) (ix2 h s) = key (aEmb m c) (aWk m c) (aBk m c) s h := by
  rw [pay1_apply, bkB_apply, wkB_eq, embB_eq]
  rfl

/-- The zero block the first point stores reads zero everywhere. -/
theorem zero_apply (y : S16x8192.Idx) : k0_pay2 (F := Ideal) y = 0 := by
  unfold k0_pay2
  exact Ideal.ofBits_zero_f32

/-- The first point: the scratch is filled, the output is the update of the zero block. -/
theorem outs_A (c : Dev nD) (t : Fin cfg0.N) (h0 : t.val % 16 = 0) :
    outsAt0 m c t.val t.isLt
      = (k0_pay3 (F := Ideal) (rowsAt (grid0.coords t) (embB m c t)) (wqB m c t) (bqB m c t)
            (k0_pay1 (F := Ideal) (wkB m c t) (embB m c t) (bkB m c t)) (colsAt (grid0.coords t) (belB m c t)) (k0_pay2 (F := Ideal)),
         k0_pay1 (F := Ideal) (wkB m c t) (embB m c t) (bkB m c t)) := by
  rw [outsAt0_A m c t h0,
    out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t),
    sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)]

/-- A later point: the scratch is kept, the output is the update of what the point before left. -/
theorem outs_B (c : Dev nD) (t : Fin cfg0.N) (h0 : ¬t.val % 16 = 0) :
    outsAt0 m c t.val t.isLt
      = (k0_pay3 (F := Ideal) (rowsAt (grid0.coords t) (embB m c t)) (wqB m c t) (bqB m c t)
            (outsAt0 m c (t.val - 1) (Nat.lt_of_le_of_lt (Nat.sub_le _ _) t.isLt)).2 (colsAt (grid0.coords t) (belB m c t))
            (outsAt0 m c (t.val - 1) (Nat.lt_of_le_of_lt (Nat.sub_le _ _) t.isLt)).1,
         (outsAt0 m c (t.val - 1) (Nat.lt_of_le_of_lt (Nat.sub_le _ _) t.isLt)).2) := by
  rw [outsAt0_B m c t h0,
    out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t)
      (outsAt0 m c (t.val - 1) (Nat.lt_of_le_of_lt (Nat.sub_le _ _) t.isLt)).1 (outsAt0 m c (t.val - 1) (Nat.lt_of_le_of_lt (Nat.sub_le _ _) t.isLt)).2]
  rfl

/-- The update at point `t`, over a scratch that holds the key features, adds block `t`'s contribution. -/
theorem step_apply (c : Dev nD) (t : Fin cfg0.N) (k : Fin 16) (hk : k.val = t.val) (sc : Vec Ideal S64x8192 .bf16)
    (old : Vec Ideal S16x8192 .f32)
    (hsc : ∀ (h : Fin 64) (s : Fin 8192), sc (ix2 h s) = key (aEmb m c) (aWk m c) (aBk m c) s h) (b : Fin 16) (j : Fin 8192) :
    k0_pay3 (F := Ideal) (rowsAt (grid0.coords t) (embB m c t)) (wqB m c t) (bqB m c t) sc (colsAt (grid0.coords t) (belB m c t)) old (ix2 b j)
      = old (ix2 b j) + blockTerm (aBel m c) (aEmb m c) (aWk m c) (aBk m c) (aWq m c) (aBq m c) k b j := by
  rw [pay3_apply]
  refine congrArg (old (ix2 b j) + ·) ?_
  exact update_eq (aBel m c) (aEmb m c) (aWk m c) (aBk m c) (aWq m c) (aBq m c) k (rowsAt (grid0.coords t) (embB m c t)) (wqB m c t) (bqB m c t) sc (colsAt (grid0.coords t) (belB m c t))
    (fun r d => rows_apply m c t k hk r d) (fun h d => congrFun (wqB_eq m c t) (ix2 h d)) (fun h => bqB_apply m c t h) hsc
    (fun b r => cols_apply m c t k hk b r) b j

/-- After point `n` the scratch holds every key feature and the output the contributions of blocks 0 … n. -/
theorem outsAt_inv (c : Dev nD) : ∀ (n : ℕ) (hn : n < cfg0.N),
    (∀ (h : Fin 64) (s : Fin 8192), (outsAt0 m c n hn).2 (ix2 h s) = key (aEmb m c) (aWk m c) (aBk m c) s h)
    ∧ (∀ (b : Fin 16) (j : Fin 8192), (outsAt0 m c n hn).1 (ix2 b j)
        = ∑ k : Fin (n + 1), blockTerm (aBel m c) (aEmb m c) (aWk m c) (aBk m c) (aWq m c) (aBq m c) ⟨k.val, lt_of_lt_of_le k.isLt (Nat.succ_le_of_lt (lt_of_lt_of_eq hn N_0))⟩ b j)
  | 0, hn => by
    have e := outs_A m c ⟨0, hn⟩ rfl
    constructor
    · intro h s
      rw [show outsAt0 m c 0 hn = _ from e]
      dsimp only
      exact fill_apply m c ⟨0, hn⟩ h s
    · intro b j
      rw [show outsAt0 m c 0 hn = _ from e]
      dsimp only
      rw [step_apply m c ⟨0, hn⟩ ⟨0, by decide⟩ rfl _ _ (fill_apply m c ⟨0, hn⟩) b j, zero_apply, zero_add,
        Fin.sum_univ_castSucc, Fin.sum_univ_zero, zero_add]
      rfl
  | n + 1, hn => by
    have hN : n + 1 < 16 := lt_of_lt_of_eq hn N_0
    have hB : ¬(⟨n + 1, hn⟩ : Fin cfg0.N).val % 16 = 0 := by dsimp only; omega
    obtain ⟨ihS, ihO⟩ := outsAt_inv c n (Nat.lt_of_succ_lt hn)
    have e := outs_B m c ⟨n + 1, hn⟩ hB
    constructor
    · intro h s
      rw [show outsAt0 m c (n + 1) hn = _ from e]
      dsimp only
      exact ihS h s
    · intro b j
      rw [show outsAt0 m c (n + 1) hn = _ from e]
      dsimp only
      show k0_pay3 (F := Ideal) (rowsAt (grid0.coords ⟨n + 1, hn⟩) (embB m c ⟨n + 1, hn⟩)) (wqB m c ⟨n + 1, hn⟩) (bqB m c ⟨n + 1, hn⟩)
          (outsAt0 m c n (Nat.lt_of_succ_lt hn)).2 (colsAt (grid0.coords ⟨n + 1, hn⟩) (belB m c ⟨n + 1, hn⟩))
          (outsAt0 m c n (Nat.lt_of_succ_lt hn)).1 (ix2 b j) = _
      rw [step_apply m c ⟨n + 1, hn⟩ ⟨n + 1, hN⟩ rfl _ _ ihS b j, Fin.sum_univ_castSucc]
      exact congrArg₂ (· + ·) (ihO b j) rfl

/-- The result array's contents: the new belief of the arguments as launched on core `c`. -/
abbrev result (c : Dev nD) : Buf (Elt Ideal) ((c : Thread nD τ).loc main_v2) :=
  prior (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- After the last point the output holds the new belief. -/
theorem outs_last (c : Dev nD) : (outsAt0 m c t0_15.val t0_15.isLt).1 = result m c := by
  funext y
  obtain ⟨b, j, rfl⟩ : ∃ (b : Fin 16) (j : Fin 8192), y = ix2 b j := ⟨y 0, y 1, eq_ix2 y⟩
  rw [(outsAt_inv m c t0_15.val t0_15.isLt).2 b j]
  exact (prior_eq_blocks (aBel m c) (aEmb m c) (aWk m c) (aBk m c) (aWq m c) (aBq m c) b j).symm

/-- The one write-back, after the last point, writes it: the block is the whole array. -/
theorem flushed_eq (c : Dev nD) (t : Fin cfg0.N) (hf : (cfg0.win 6).flush t = true) :
    (dats m 0 c).flushed 6 t = ((cfg0.win 6).blk t).view.read (Elt Ideal) (result m c) := by
  have hN : cfg0.N = 16 := N_0
  have h15 : t.val = 15 := by have := (flush0_6 t).mp hf; have := t.isLt; omega
  obtain rfl : t = t0_15 := Fin.ext h15
  show (cfg0.win 6).cut (grid0.coords t0_15) ((dats m 0 c).after 6 t0_15) = _
  rw [after0_6, outs_last]
  have hz' : (fun a => win0_6.index t0_15 a * main_v2.ty.shape.size a) = fun _ => 0 := funext fun a => by rw [idx6 t0_15 a, Nat.zero_mul]
  exact (Memref.read_access_unit_zero (Elt Ideal) main_v2 hz' (fun a => by rw [congrFun hz' a]; simp) (result m c)).symm

/-- So the result array ends at the new belief: the last point's block covers it. -/
theorem final_o (c : Dev nD) : (dats m 0 c).arrAt 6 cfg0.N = result m c :=
  (dats m 0 c).arrAt_eq_of_cover 6 (result m c) (flushed_eq m c) fun i =>
    ⟨t0_15, (flush0_6 t0_15).mpr rfl, by
      show i ∈ ((View.whole main_v2).slice (win0_6.rect t0_15)).set
      rw [View.set_slice_whole, Rect.mem_set_unit]
      intro a
      have h0 : (i 0 : Nat) < 16 := (i 0).isLt
      have h1 : (i 1 : Nat) < 8192 := (i 1).isLt
      match a with
      | ⟨0, _⟩ =>
        show win0_6.index t0_15 0 * win0_6.size 0 ≤ (i 0 : Nat) ∧ (i 0 : Nat) < win0_6.index t0_15 0 * win0_6.size 0 + win0_6.xsize (grid0.coords t0_15) 0
        rw [idx6 t0_15 0, show win0_6.xsize (grid0.coords t0_15) 0 = 16 from by decide +kernel]; omega
      | ⟨1, _⟩ =>
        show win0_6.index t0_15 1 * win0_6.size 1 ≤ (i 1 : Nat) ∧ (i 1 : Nat) < win0_6.index t0_15 1 * win0_6.size 1 + win0_6.xsize (grid0.coords t0_15) 1
        rw [idx6 t0_15 1, show win0_6.xsize (grid0.coords t0_15) 1 = 8192 from by decide +kernel]; omega⟩

/-- The run, read: the result array at the new belief, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_o m c), (h c).2⟩) (Cert.KernelIdeal.Value.run_blocks m ρ)

end Cert.Transition.KernelValue

end
-- ==== Proof.lean ====
/- The certificate of the factorized transition: a fused kernel that streams the 8192 × 8192 softmax block of
   512 rows at a time and accumulates `belief · softmax` into one resident output, against the plain
   `belief @ softmax(Q Kᵀ)`.
   The three frames are the generated ones (the reference's is its generated run with the result dropped); nothing was
   rewritten by the idealization, so `preserves` is trivial; the value claim joins three facts: the kernel's result
   array ends at `Transition.prior` of the arguments (Proof/KernelValue.lean), the reference's at
   `Transition.refPrior` (Proof/RefRead.lean), and the two agree when every argument entry is a real
   (Proof/Softmax.lean), which the precondition says (Proof/Finite.lean). -/
import proofs.«127423_g5935644803188_cont_9to1c4b_610_4_alg».proof.Defs
import proofs.«127423_g5935644803188_cont_9to1c4b_610_4_alg».proof.Proof.Gen.Kernel
import proofs.«127423_g5935644803188_cont_9to1c4b_610_4_alg».proof.Proof.Gen.Kernel.Skeleton
import proofs.«127423_g5935644803188_cont_9to1c4b_610_4_alg».proof.Proof.Gen.Kernel.Launch
import proofs.«127423_g5935644803188_cont_9to1c4b_610_4_alg».proof.Proof.Gen.Kernel.Points
import proofs.«127423_g5935644803188_cont_9to1c4b_610_4_alg».proof.Proof.Gen.Kernel.Frame
import proofs.«127423_g5935644803188_cont_9to1c4b_610_4_alg».proof.Proof.Gen.KernelIdeal
import proofs.«127423_g5935644803188_cont_9to1c4b_610_4_alg».proof.Proof.Gen.KernelIdeal.Skeleton
import proofs.«127423_g5935644803188_cont_9to1c4b_610_4_alg».proof.Proof.Gen.KernelIdeal.Launch
import proofs.«127423_g5935644803188_cont_9to1c4b_610_4_alg».proof.Proof.Gen.KernelIdeal.Points
import proofs.«127423_g5935644803188_cont_9to1c4b_610_4_alg».proof.Proof.Gen.KernelIdeal.Frame
import proofs.«127423_g5935644803188_cont_9to1c4b_610_4_alg».proof.Proof.Gen.ReferenceIdeal
import proofs.«127423_g5935644803188_cont_9to1c4b_610_4_alg».proof.Proof.Gen.Pre_finite_inputs
import proofs.«127423_g5935644803188_cont_9to1c4b_610_4_alg».proof.Proof.Gen.KernelIdeal.Value
import proofs.«127423_g5935644803188_cont_9to1c4b_610_4_alg».proof.Proof.Gen.ReferenceIdeal.Run
import proofs.«127423_g5935644803188_cont_9to1c4b_610_4_alg».proof.Proof.Gen.ReferenceIdeal.Read
import proofs.«127423_g5935644803188_cont_9to1c4b_610_4_alg».proof.Proof.Spec
import proofs.«127423_g5935644803188_cont_9to1c4b_610_4_alg».proof.Proof.Softmax
import proofs.«127423_g5935644803188_cont_9to1c4b_610_4_alg».proof.Proof.RefRead
import proofs.«127423_g5935644803188_cont_9to1c4b_610_4_alg».proof.Proof.Finite
import proofs.«127423_g5935644803188_cont_9to1c4b_610_4_alg».proof.Proof.KernelValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end, the kernel's result at `prior` and the reference's at `refPrior` of arguments that agree; the
    precondition makes every entry a real, where the two are one function. -/
theorem algebraic : Cert.algebraic_KernelIdeal_ReferenceIdeal := by
  intro m ρ m' ρ' hpre hagree
  refine ⟨fun c => Cert.Transition.KernelValue.result m c, Cert.Transition.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.Transition.RefRead.ref_value,
    (hagree c).1, (hagree c).2.1, (hagree c).2.2.1, (hagree c).2.2.2.1, (hagree c).2.2.2.2.1, (hagree c).2.2.2.2.2]
  obtain ⟨h0, h1, h2, h3, h4, h5⟩ := Cert.Transition.Finite.allReal_of_pre _ _ _ _ _ _ (hpre c)
  exact Cert.Transition.refPrior_eq_prior _ _ _ _ _ _ h0 h1 h2 h3 h4 h5

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
